-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S512x512 : Shape := ⟨2, ![512, 512]⟩
abbrev S512 : Shape := ⟨1, ![512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S64x512x512 .f32) (main_arg1 : FVec F S512x512 .f32) (main_arg2 : FVec F S512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S64x512x512 : Shape := ⟨3, ![64, 512, 512]⟩
abbrev S512x512 : Shape := ⟨2, ![512, 512]⟩
abbrev S512 : Shape := ⟨1, ![512]⟩
abbrev S32768x512 : Shape := ⟨2, ![32768, 512]⟩
abbrev S1x512 : Shape := ⟨2, ![1, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S64x512x512, .f32⟩
  | .hbm, ⟨1, _⟩ => ⟨S512x512, .f32⟩
  | .hbm, ⟨2, _⟩ => ⟨S512, .f32⟩
  | .hbm, ⟨3, _⟩ => ⟨S32768x512, .f32⟩
  | .hbm, ⟨4, _⟩ => ⟨S512x512, .bf16⟩
  | .hbm, ⟨5, _⟩ => ⟨S1x512, .f32⟩
  | .hbm, ⟨6, _⟩ => ⟨S32768x512, .f32⟩
  | .hbm, ⟨7, _⟩ => ⟨S64x512x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512x512_S32768x512 : S64x512x512.ShapeCasts S32768x512
  bitsLt_bf16_f32 : FTy.bits .bf16 < FTy.bits .f32
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S32768x512_S64x512x512 : S32768x512.ShapeCasts S64x512x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S32768x512.size a
  hwx0_3 : ∀ i : grid0.Coords, EltTy.bits .f32 = 32 ∨ (Rect.block (s := S32768x512) S1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S512x512 : Shape := ⟨2, ![512, 512]⟩
abbrev S512 : Shape := ⟨1, ![512]⟩
abbrev S32768x512 : Shape := ⟨2, ![32768, 512]⟩
abbrev S1x512 : Shape := ⟨2, ![1, 512]⟩
abbrev S4096x512 : Shape := ⟨2, ![4096, 512]⟩

abbrev nBuf : Space → Nat
  | .hbm => 7
  | .vmem => 6
  | .smem => 0
  | _ => 0

abbrev bufTy : (tb : Table) → Fin (tcTables nBuf tb) → BufTy
  | .hbm, ⟨0, _⟩ => ⟨S64x512x512, .f32⟩
  | .hbm, ⟨1, _⟩ => ⟨S512x512, .f32⟩
  | .hbm, ⟨2, _⟩ => ⟨S512, .f32⟩
  | .hbm, ⟨3, _⟩ => ⟨S32768x512, .f32⟩
  | .hbm, ⟨4, _⟩ => ⟨S1x512, .f32⟩
  | .hbm, ⟨5, _⟩ => ⟨S32768x512, .f32⟩
  | .hbm, ⟨6, _⟩ => ⟨S64x512x512, .f32⟩
  | .local _ .vmem, ⟨0, _⟩ => ⟨S4096x512, .f32⟩
  | .local _ .vmem, ⟨1, _⟩ => ⟨S4096x512, .f32⟩
  | .local _ .vmem, ⟨2, _⟩ => ⟨S512x512, .f32⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512x512_S32768x512 : S64x512x512.ShapeCasts S32768x512
  shapeCasts_S512_S1x512 : S512.ShapeCasts S1x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  shapeCasts_S32768x512_S64x512x512 : S32768x512.ShapeCasts S64x512x512
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S32768x512.size a
  hwx0_0 : ∀ i : grid0.Coords, EltTy.bits .f32 = 32 ∨ (Rect.block (s := S32768x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S32768x512.size a
  hwx0_3 : ∀ i : grid0.Coords, EltTy.bits .f32 = 32 ∨ (Rect.block (s := S32768x512) S4096x512.size (cc0_transform_3 i) (hinb0_3 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.SnakeRows.lean ====
/-
  The snake layer as ONE function of its arrays, on the extended reals.

  For a matrix of rows X (r rows of 512 entries), a 512 x 512 weight W and a one-row bias B, entry (p, q) of the
  layer's output is  act (sum over k of X(p, k) * W(k, q)  +  B(0, q)),  where  act y = y - cos (30 * y) * c + c  and
  c is the single-precision number nearest 1/30 (the same two literal words in both programs, never evaluated here).
  Entry (p, q) depends on row p of X only: this is why a block of rows of the output is the same function of the
  matching block of rows of X, whatever the height of the block — 1024 rows in one program, 4096 in the other.

  Also here: the product of an r x 512 by a 512 x 512 matrix accumulated into a zero block, plus a one-row matrix laid
  along every row, read at an index (body_apply): the sum over the contracted coordinate plus the row's entry.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.StackMember

noncomputable section

namespace Cert.Snake

open Idealize.ShloMosaic Idealize.ShloMosaic.ValueIdx

/-- The activation on one extended real: y - cos (30 y) c + c, with 30 and c as the programs spell them. -/
def act (y : Ideal .f32) : Ideal .f32 :=
  FloatOps.addf
    (FloatOps.subf y
      (FloatOps.mulf (FloatOps.cos (FloatOps.mulf (Scalar.ofBits (F := Ideal) .f32 0x41F00000#32) y))
        (Scalar.ofBits (F := Ideal) .f32 0x3D088889#32)))
    (Scalar.ofBits (F := Ideal) .f32 0x3D088889#32)

/-- The value before the activation at (p, q): row p of X against column q of W, plus the bias at column q. -/
def pre {r : Nat} (X : (⟨2, ![r, 512]⟩ : Shape).Idx → EReal) (W : (⟨2, ![512, 512]⟩ : Shape).Idx → EReal)
    (B : (⟨2, ![1, 512]⟩ : Shape).Idx → EReal) (p : Fin r) (q : Fin 512) : EReal :=
  (∑ k : Fin 512, X (ix2 p k) * W (ix2 k q)) + B (ix2 (0 : Fin 1) q)

/-- The layer on a matrix of r rows. -/
def rows {r : Nat} (X : (⟨2, ![r, 512]⟩ : Shape).Idx → EReal) (W : (⟨2, ![512, 512]⟩ : Shape).Idx → EReal)
    (B : (⟨2, ![1, 512]⟩ : Shape).Idx → EReal) : (⟨2, ![r, 512]⟩ : Shape).Idx → EReal :=
  fun i => act (pre X W B (i 0) (i 1))

theorem rows_apply {r : Nat} (X : (⟨2, ![r, 512]⟩ : Shape).Idx → EReal) (W : (⟨2, ![512, 512]⟩ : Shape).Idx → EReal)
    (B : (⟨2, ![1, 512]⟩ : Shape).Idx → EReal) (p : Fin r) (q : Fin 512) :
    rows X W B (ix2 p q) = act (pre X W B p q) := rfl

/-- A matrix product into a zero block plus a row laid along every row, at (p, q): the contraction's sum plus the
    row's entry at q. The two operands may be of any two float formats: at the ideal values a format is not a
    rounding. -/
theorem body_apply {r : Nat} {φ₁ φ₂ : FTy} (A : FVec Ideal ⟨2, ![r, 512]⟩ φ₁) (Wt : FVec Ideal ⟨2, ![512, 512]⟩ φ₂)
    (b : FVec Ideal ⟨2, ![1, 512]⟩ .f32) (hb : (⟨2, ![1, 512]⟩ : Shape).Broadcasts ⟨2, ![r, 512]⟩)
    (p : Fin r) (q : Fin 512) :
    addf (matmul (DotDims.plain r 512 512) none A Wt (constant ⟨2, ![r, 512]⟩ .f32 0x00000000#32))
        (broadcastTo ⟨2, ![r, 512]⟩ b hb) (ix2 p q)
      = pre A Wt b p q := by
  rw [addf_apply, matmul_zero_eq_dotGeneral, StackMember.dotGeneral_plain_apply, broadcastTo_1b_ab_apply]
  rfl

/-! ## The whole layer: the batch folded into rows, the bias made a one-row matrix, the rows unfolded again -/

theorem casts_in : (⟨3, ![64, 512, 512]⟩ : Shape).ShapeCasts ⟨2, ![32768, 512]⟩ := by decide
theorem casts_bias : (⟨1, ![512]⟩ : Shape).ShapeCasts ⟨2, ![1, 512]⟩ := by decide
theorem casts_out : (⟨2, ![32768, 512]⟩ : Shape).ShapeCasts ⟨3, ![64, 512, 512]⟩ := by decide

/-- The layer on x : [64, 512, 512], w : [512, 512], b : [512]: the 64 x 512 leading entries of x read as 32768 rows
    (row-major), the layer on those rows, the result read back as [64, 512, 512]. -/
def layer (x : (⟨3, ![64, 512, 512]⟩ : Shape).Idx → EReal) (w : (⟨2, ![512, 512]⟩ : Shape).Idx → EReal)
    (b : (⟨1, ![512]⟩ : Shape).Idx → EReal) : (⟨3, ![64, 512, 512]⟩ : Shape).Idx → EReal :=
  shapeCast ⟨3, ![64, 512, 512]⟩
    (rows (shapeCast ⟨2, ![32768, 512]⟩ x casts_in) w (shapeCast ⟨2, ![1, 512]⟩ b casts_bias)) casts_out

end Cert.Snake

end
-- ==== Proof.KernelValue.lean ====
/-
  What the kernel's program computes, read off its run: the result array is the snake layer of the three argument
  arrays (Cert.Snake.layer).

  The pallas_call walks 32 blocks of 1024 rows. At point t the body multiplies block t of the rows (cast to bf16, which
  changes no extended real) by the whole weight (converted to bf16 on the host, likewise no change), adds the bias row
  along every row and applies the activation: entry (p, q) of what it stores is act (sum_k x(1024 t + p, k) w(k, q) + b(q)),
  which is entry (1024 t + p, q) of Cert.Snake.rows of the three arrays the call finds. The 32 blocks tile the 32768
  rows, so the array the call leaves IS Cert.Snake.rows of those arrays; the host lines before the call fold x into
  rows and make the bias a one-row matrix, the line after it unfolds the rows.
-/
import proofs.«137465_g2000004240990481_pallasbulk_134_2_alg».proof.Proof.Gen.KernelIdeal.Frame
import proofs.«137465_g2000004240990481_pallasbulk_134_2_alg».proof.Proof.SnakeRows
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RowsValue

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The printed contraction is the plain one: rows by columns, one contracted axis. -/
theorem dot_eq : dot_S1024x512_S512x512_S1024x512_1_0_0_1_n_n = DotDims.plain 1024 512 512 := rfl

/-- What the body stores, at (p, q): the activation of row p of the block against column q of the weight plus the bias. -/
theorem pay_apply (x0 : Vec Ideal S1024x512 .f32) (x1 : Vec Ideal S512x512 .bf16) (x2 : Vec Ideal S1x512 .f32)
    (p : Fin 1024) (q : Fin 512) :
    k0_pay1 (F := Ideal) x0 x1 x2 (ix2 p q) = Snake.act (Snake.pre x0 x1 x2 p q) := by
  show Snake.act (addf (matmul dot_S1024x512_S512x512_S1024x512_1_0_0_1_n_n none
      (truncf .bf16 (shapeCast S1024x512 x0 _) _) (shapeCast S512x512 x1 _) (constant S1024x512 .f32 0x00000000#32))
      (broadcastTo S1024x512 (shapeCast S1x512 x2 _) _) (ix2 p q)) = _
  rw [shapeCast_self, shapeCast_self, shapeCast_self, dot_eq]
  exact congrArg Snake.act (Snake.body_apply _ x1 x2 _ p q)

/-! ## The windows' blocks are blocks of rows -/

/-- The printed index maps over the 32 points: the rows' window and the output's window sit at block t on the row
    axis and at block 0 on the column axis; the weight's and the bias's windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 32 := Nat.lt_of_lt_of_eq t.isLt (show cfg0.N = 32 from N_0)

/-- Row p of the rows' block at point t is row 1024 t + p of the array. -/
theorem read_x (c : Dev nD) (t : Fin cfg0.N) (p : Fin 1024) (k : Fin 512) (P : Fin 32768) (hP : P.val = t.val * 1024 + p.val) :
    iblk m c 0 t (ix2 p k) = V m c main_v0 (ix2 P k) := by
  show V m c main_v0 (((cfg0.win 0).blk t).view.emb (ix2 p k)) = V m c main_v0 (ix2 P k)
  obtain ⟨e00, e01, -⟩ := idx_facts t
  have h : ((cfg0.win 0).blk t).view.emb (ix2 p k) = ix2 P k := by
    funext a; apply Fin.ext
    match a with
    | ⟨0, _⟩ => show win0_0.index t (0 : Fin 2) * 1024 + 1 * p.val = P.val; omega
    | ⟨1, _⟩ => show win0_0.index t (1 : Fin 2) * 512 + 1 * k.val = k.val; omega
  rw [h]

/-- The weight's block is the whole weight at every point. -/
theorem read_w (c : Dev nD) (t : Fin cfg0.N) (k : Fin 512) (q : Fin 512) :
    iblk m c 1 t (ix2 k q) = V m c main_v1 (ix2 k q) := by
  show V m c main_v1 (((cfg0.win 1).blk t).view.emb (ix2 k q)) = V m c main_v1 (ix2 k q)
  obtain ⟨-, -, e10, e11, -⟩ := idx_facts t
  have h : ((cfg0.win 1).blk t).view.emb (ix2 k q) = ix2 k q := by
    funext a; apply Fin.ext
    match a with
    | ⟨0, _⟩ => show win0_1.index t (0 : Fin 2) * 512 + 1 * k.val = k.val; omega
    | ⟨1, _⟩ => show win0_1.index t (1 : Fin 2) * 512 + 1 * q.val = q.val; omega
  rw [h]

/-- The bias's block is the whole one-row bias at every point. -/
theorem read_b (c : Dev nD) (t : Fin cfg0.N) (q : Fin 512) :
    iblk m c 2 t (ix2 (0 : Fin 1) q) = V m c main_v2 (ix2 (0 : Fin 1) q) := by
  show V m c main_v2 (((cfg0.win 2).blk t).view.emb (ix2 (0 : Fin 1) q)) = V m c main_v2 (ix2 (0 : Fin 1) q)
  obtain ⟨-, -, -, -, e20, e21, -⟩ := idx_facts t
  have h : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 512 + 1 * q.val = q.val; omega
  rw [h]

/-- WHAT POINT t WRITES BACK is block t of the layer on the rows, the weight and the bias row the call finds. -/
theorem flushed_eq (c : Dev nD) (t : Fin cfg0.N) :
    (dats m 0 c).flushed 3 t
      = ((cfg0.win 3).blk t).view.read (Elt Ideal) (Snake.rows (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1024x512) hz, View.ld_unit_zero (S := S512x512) hz, View.ld_unit_zero (S := S1x512) hz]
  funext j
  obtain ⟨p, q, rfl⟩ : ∃ (p : Fin 1024) (q : Fin 512), j = ix2 p q := ⟨j 0, j 1, eq_ix2 j⟩
  have ht := t_lt t
  have hp := p.isLt
  obtain ⟨-, -, -, -, -, -, e30, e31⟩ := idx_facts t
  have hemb : ((cfg0.win 3).blk t).view.emb (ix2 p q) = ix2 (⟨t.val * 1024 + p.val, by omega⟩ : Fin 32768) q := by
    funext a; apply Fin.ext
    match a with
    | ⟨0, _⟩ => show win0_3.index t (0 : Fin 2) * 1024 + 1 * p.val = t.val * 1024 + p.val; omega
    | ⟨1, _⟩ => show win0_3.index t (1 : Fin 2) * 512 + 1 * q.val = q.val; omega
  show k0_pay1 (F := Ideal) (iblk m c 0 t) (iblk m c 1 t) (iblk m c 2 t) (ix2 p q)
    = Snake.rows (V m c main_v0) (V m c main_v1) (V m c main_v2) (((cfg0.win 3).blk t).view.emb (ix2 p q))
  rw [hemb, Snake.rows_apply]
  refine (pay_apply (iblk m c 0 t) (iblk m c 1 t) (iblk m c 2 t) p q).trans (congrArg Snake.act ?_)
  unfold Snake.pre
  rw [read_b m c t q]
  refine congrArg (· + V m c main_v2 (ix2 (0 : Fin 1) q)) (Finset.sum_congr rfl fun k _ => ?_)
  rw [read_x m c t p k ⟨t.val * 1024 + p.val, by omega⟩ rfl, read_w m c t k q]

/-! ## The array after the call -/

/-- An index of the output array is in point t's block iff each coordinate is in the block's range on its axis. -/
theorem mem_blk (t : Fin cfg0.N) (i : S32768x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v3).slice (win0_3.rect t)).set ↔ _
  rw [View.set_slice_whole, Rect.mem_set_unit]
  exact Iff.rfl

/-- Row r of the output lies in the block of point r / 1024, and every point writes its block back. -/
theorem cover (i : S32768x512.Idx) :
    ∃ t : Fin cfg0.N, (cfg0.win 3).flush t = true ∧ i ∈ ((cfg0.win 3).blk t).view.set := by
  have hi0 : (i 0).val < 32768 := (i 0).isLt
  have hi1 : (i 1).val < 512 := (i 1).isLt
  have hN : cfg0.N = 32 := N_0
  refine ⟨⟨(i 0).val / 1024, by rw [hN]; omega⟩, flush0_3 _, ?_⟩
  rw [mem_blk]
  obtain ⟨-, -, -, -, -, -, e30, e31⟩ := idx_facts ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e30]; show (i 0).val / 1024 * 1024 ≤ (i 0).val ∧ (i 0).val < (i 0).val / 1024 * 1024 + 1024; omega
  | ⟨1, _⟩ =>
    show win0_3.index _ (1 : Fin 2) * 512 ≤ (i 1).val ∧ (i 1).val < win0_3.index _ (1 : Fin 2) * 512 + 512
    rw [e31]; omega

/-- THE ARRAY the call leaves is the layer on the rows, the weight and the bias row it found. -/
theorem final (c : Dev nD) :
    (dats m 0 c).arrAt 3 cfg0.N = Snake.rows (V m c main_v0) (V m c main_v1) (V m c main_v2) :=
  (dats m 0 c).arrAt_eq_of_cover 3 _ (fun t _ => flushed_eq m c t) cover

/-! ## The host lines around the call -/

/-- Before the call the host reads x : [64, 512, 512] as 32768 rows, row-major. -/
theorem V_v0 (c : Dev nD) :
    V m c main_v0 = shapeCast S32768x512 (m ((c : Thread nD τ).loc main_arg0)) Snake.casts_in := by
  show StableHlo.after hostOps0 (fun b => m (c, b)) (Proc.devRef .tc main_v0) = _
  after_results
  rfl

/-- It converts the weight to bf16, which changes no extended real. -/
theorem V_v1 (c : Dev nD) : V m c main_v1 = m ((c : Thread nD τ).loc main_arg1) := by
  show StableHlo.after hostOps0 (fun b => m (c, b)) (Proc.devRef .tc main_v1) = _
  after_results
  rfl

/-- And it reads the bias as a one-row matrix. -/
theorem V_v2 (c : Dev nD) :
    V m c main_v2 = shapeCast S1x512 (m ((c : Thread nD τ).loc main_arg2)) Snake.casts_bias := by
  show StableHlo.after hostOps0 (fun b => m (c, b)) (Proc.devRef .tc main_v2) = _
  after_results
  rfl

/-- After the call the host reads the 32768 rows the call left as [64, 512, 512]. -/
theorem tail_v4 (c : Dev nD) :
    Pipeline.afterTail₀ cfgs (dats m) 0 (V0 m) [hostOps1] c main_v4
      = shapeCast S64x512x512 ((dats m 0 c).arrAt 3 cfg0.N) Snake.casts_out := by
  unfold Pipeline.afterTail₀
  show StableHlo.after hostOps1 _ (Proc.devRef .tc main_v4) = _
  after_results
  exact congrArg (fun A => shapeCast S64x512x512 A Snake.casts_out)
    (Pipeline.withArrays_arr spec0 launch0.win.arr_inj c (V0 m c) (fun w => (dats m 0 c).arrAt w cfg0.N) 3)

/-! ## The run, read -/

/-- Every weakly fair execution of the program ends with the result array at the layer of the argument arrays, and the
    argument arrays as they were. -/
theorem run : θ_run defs (onTc (τ := τ) (main (F := Ideal))) ⟨m, fun _ => 0, ρ⟩ fun r => ∀ c : Dev nD,
      r.2.mem ((c.tc : Thread nD τ).loc main_v4)
        = Snake.layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v4 (Pipeline.mem_restRefs_of main_v4 (by decide) (by decide))).trans
          ((tail_v4 m c).trans (by rw [final, V_v0, V_v1, V_v2]; rfl)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.RowsValue

end
-- ==== Proof.ReferenceValue.lean ====
/-
  What the reference's program computes, read off its run: the result array is the snake layer of the three argument
  arrays (Cert.Snake.layer) — the same function the kernel's program ends at.

  Here the pallas_call walks 8 blocks of 4096 rows, its weight window is the f32 weight argument itself and the rows
  are multiplied uncast. At point t entry (p, q) of what the body stores is act (sum_k x(4096 t + p, k) w(k, q) + b(q)):
  entry (4096 t + p, q) of Cert.Snake.rows of the arrays the call finds. The 8 blocks tile the 32768 rows; the host
  lines before the call fold x into rows and make the bias a one-row matrix, the line after it unfolds the rows.
-/
import proofs.«137465_g2000004240990481_pallasbulk_134_2_alg».proof.Proof.Gen.ReferenceIdeal.Frame
import proofs.«137465_g2000004240990481_pallasbulk_134_2_alg».proof.Proof.SnakeRows
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.RowsValue

open Cert.ReferenceIdeal Cert.ReferenceIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The printed contraction is the plain one: rows by columns, one contracted axis. -/
theorem dot_eq : dot_S4096x512_S512x512_S4096x512_1_0_0_1_n_n = DotDims.plain 4096 512 512 := rfl

/-- What the body stores, at (p, q): the activation of row p of the block against column q of the weight plus the bias. -/
theorem pay_apply (x0 : Vec Ideal S4096x512 .f32) (x1 : Vec Ideal S512x512 .f32) (x2 : Vec Ideal S1x512 .f32)
    (p : Fin 4096) (q : Fin 512) :
    k0_pay1 (F := Ideal) x0 x1 x2 (ix2 p q) = Snake.act (Snake.pre x0 x1 x2 p q) := by
  show Snake.act (addf (matmul dot_S4096x512_S512x512_S4096x512_1_0_0_1_n_n none
      (shapeCast S4096x512 x0 _) x1 (constant S4096x512 .f32 0x00000000#32))
      (broadcastTo S4096x512 (shapeCast S1x512 x2 _) _) (ix2 p q)) = _
  rw [shapeCast_self, shapeCast_self, dot_eq]
  exact congrArg Snake.act (Snake.body_apply x0 x1 x2 _ p q)

/-! ## The windows' blocks are blocks of rows -/

/-- The printed index maps over the 8 points: the rows' window and the output's window sit at block t on the row
    axis and at block 0 on the column axis; the weight's and the bias's windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 8 := Nat.lt_of_lt_of_eq t.isLt (show cfg0.N = 8 from N_0)

/-- Row p of the rows' block at point t is row 4096 t + p of the array. -/
theorem read_x (c : Dev nD) (t : Fin cfg0.N) (p : Fin 4096) (k : Fin 512) (P : Fin 32768) (hP : P.val = t.val * 4096 + p.val) :
    iblk m c 0 t (ix2 p k) = V m c main_v0 (ix2 P k) := by
  show V m c main_v0 (((cfg0.win 0).blk t).view.emb (ix2 p k)) = V m c main_v0 (ix2 P k)
  obtain ⟨e00, e01, -⟩ := idx_facts t
  have h : ((cfg0.win 0).blk t).view.emb (ix2 p k) = ix2 P k := by
    funext a; apply Fin.ext
    match a with
    | ⟨0, _⟩ => show win0_0.index t (0 : Fin 2) * 4096 + 1 * p.val = P.val; omega
    | ⟨1, _⟩ => show win0_0.index t (1 : Fin 2) * 512 + 1 * k.val = k.val; omega
  rw [h]

/-- The weight's block is the whole weight at every point. -/
theorem read_w (c : Dev nD) (t : Fin cfg0.N) (k : Fin 512) (q : Fin 512) :
    iblk m c 1 t (ix2 k q) = V m c main_arg1 (ix2 k q) := by
  show V m c main_arg1 (((cfg0.win 1).blk t).view.emb (ix2 k q)) = V m c main_arg1 (ix2 k q)
  obtain ⟨-, -, e10, e11, -⟩ := idx_facts t
  have h : ((cfg0.win 1).blk t).view.emb (ix2 k q) = ix2 k q := by
    funext a; apply Fin.ext
    match a with
    | ⟨0, _⟩ => show win0_1.index t (0 : Fin 2) * 512 + 1 * k.val = k.val; omega
    | ⟨1, _⟩ => show win0_1.index t (1 : Fin 2) * 512 + 1 * q.val = q.val; omega
  rw [h]

/-- The bias's block is the whole one-row bias at every point. -/
theorem read_b (c : Dev nD) (t : Fin cfg0.N) (q : Fin 512) :
    iblk m c 2 t (ix2 (0 : Fin 1) q) = V m c main_v1 (ix2 (0 : Fin 1) q) := by
  show V m c main_v1 (((cfg0.win 2).blk t).view.emb (ix2 (0 : Fin 1) q)) = V m c main_v1 (ix2 (0 : Fin 1) q)
  obtain ⟨-, -, -, -, e20, e21, -⟩ := idx_facts t
  have h : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 512 + 1 * q.val = q.val; omega
  rw [h]

/-- WHAT POINT t WRITES BACK is block t of the layer on the rows, the weight and the bias row the call finds. -/
theorem flushed_eq (c : Dev nD) (t : Fin cfg0.N) :
    (dats m 0 c).flushed 3 t
      = ((cfg0.win 3).blk t).view.read (Elt Ideal) (Snake.rows (V m c main_v0) (V m c main_arg1) (V m c main_v1)) := by
  show (cfg0.win 3).cut (grid0.coords t) ((dats m 0 c).after 3 t) = _
  rw [after0_3]
  unfold out0_3
  rw [View.canon_unit_zero hz]
  simp only [View.ld_unit_zero (S := S4096x512) hz, View.ld_unit_zero (S := S512x512) hz, View.ld_unit_zero (S := S1x512) hz]
  funext j
  obtain ⟨p, q, rfl⟩ : ∃ (p : Fin 4096) (q : Fin 512), j = ix2 p q := ⟨j 0, j 1, eq_ix2 j⟩
  have ht := t_lt t
  have hp := p.isLt
  obtain ⟨-, -, -, -, -, -, e30, e31⟩ := idx_facts t
  have hemb : ((cfg0.win 3).blk t).view.emb (ix2 p q) = ix2 (⟨t.val * 4096 + p.val, by omega⟩ : Fin 32768) q := by
    funext a; apply Fin.ext
    match a with
    | ⟨0, _⟩ => show win0_3.index t (0 : Fin 2) * 4096 + 1 * p.val = t.val * 4096 + p.val; omega
    | ⟨1, _⟩ => show win0_3.index t (1 : Fin 2) * 512 + 1 * q.val = q.val; omega
  show k0_pay1 (F := Ideal) (iblk m c 0 t) (iblk m c 1 t) (iblk m c 2 t) (ix2 p q)
    = Snake.rows (V m c main_v0) (V m c main_arg1) (V m c main_v1) (((cfg0.win 3).blk t).view.emb (ix2 p q))
  rw [hemb, Snake.rows_apply]
  refine (pay_apply (iblk m c 0 t) (iblk m c 1 t) (iblk m c 2 t) p q).trans (congrArg Snake.act ?_)
  unfold Snake.pre
  rw [read_b m c t q]
  refine congrArg (· + V m c main_v1 (ix2 (0 : Fin 1) q)) (Finset.sum_congr rfl fun k _ => ?_)
  rw [read_x m c t p k ⟨t.val * 4096 + p.val, by omega⟩ rfl, read_w m c t k q]

/-! ## The array after the call -/

/-- An index of the output array is in point t's block iff each coordinate is in the block's range on its axis. -/
theorem mem_blk (t : Fin cfg0.N) (i : S32768x512.Idx) :
    i ∈ ((cfg0.win 3).blk t).view.set ↔ ∀ a : Fin 2, win0_3.index t a * S4096x512.size a ≤ (i a).val ∧ (i a).val < win0_3.index t a * S4096x512.size a + S4096x512.size a := by
  show i ∈ ((View.whole main_v2).slice (win0_3.rect t)).set ↔ _
  rw [View.set_slice_whole, Rect.mem_set_unit]
  exact Iff.rfl

/-- Row r of the output lies in the block of point r / 4096, and every point writes its block back. -/
theorem cover (i : S32768x512.Idx) :
    ∃ t : Fin cfg0.N, (cfg0.win 3).flush t = true ∧ i ∈ ((cfg0.win 3).blk t).view.set := by
  have hi0 : (i 0).val < 32768 := (i 0).isLt
  have hi1 : (i 1).val < 512 := (i 1).isLt
  have hN : cfg0.N = 8 := N_0
  refine ⟨⟨(i 0).val / 4096, by rw [hN]; omega⟩, flush0_3 _, ?_⟩
  rw [mem_blk]
  obtain ⟨-, -, -, -, -, -, e30, e31⟩ := idx_facts ⟨(i 0).val / 4096, by rw [hN]; omega⟩
  intro a
  match a with
  | ⟨0, _⟩ =>
    show win0_3.index _ (0 : Fin 2) * 4096 ≤ (i 0).val ∧ (i 0).val < win0_3.index _ (0 : Fin 2) * 4096 + 4096
    rw [e30]; show (i 0).val / 4096 * 4096 ≤ (i 0).val ∧ (i 0).val < (i 0).val / 4096 * 4096 + 4096; omega
  | ⟨1, _⟩ =>
    show win0_3.index _ (1 : Fin 2) * 512 ≤ (i 1).val ∧ (i 1).val < win0_3.index _ (1 : Fin 2) * 512 + 512
    rw [e31]; omega

/-- THE ARRAY the call leaves is the layer on the rows, the weight and the bias row it found. -/
theorem final (c : Dev nD) :
    (dats m 0 c).arrAt 3 cfg0.N = Snake.rows (V m c main_v0) (V m c main_arg1) (V m c main_v1) :=
  (dats m 0 c).arrAt_eq_of_cover 3 _ (fun t _ => flushed_eq m c t) cover

/-! ## The host lines around the call -/

/-- Before the call the host reads x : [64, 512, 512] as 32768 rows, row-major. -/
theorem V_v0 (c : Dev nD) :
    V m c main_v0 = shapeCast S32768x512 (m ((c : Thread nD τ).loc main_arg0)) Snake.casts_in := by
  show StableHlo.after hostOps0 (fun b => m (c, b)) (Proc.devRef .tc main_v0) = _
  after_results
  rfl

/-- And it reads the bias as a one-row matrix. -/
theorem V_v1 (c : Dev nD) :
    V m c main_v1 = shapeCast S1x512 (m ((c : Thread nD τ).loc main_arg2)) Snake.casts_bias := by
  show StableHlo.after hostOps0 (fun b => m (c, b)) (Proc.devRef .tc main_v1) = _
  after_results
  rfl

/-- After the call the host reads the 32768 rows the call left as [64, 512, 512]. -/
theorem tail_v3 (c : Dev nD) :
    Pipeline.afterTail₀ cfgs (dats m) 0 (V0 m) [hostOps1] c main_v3
      = shapeCast S64x512x512 ((dats m 0 c).arrAt 3 cfg0.N) Snake.casts_out := by
  unfold Pipeline.afterTail₀
  show StableHlo.after hostOps1 _ (Proc.devRef .tc main_v3) = _
  after_results
  exact congrArg (fun A => shapeCast S64x512x512 A Snake.casts_out)
    (Pipeline.withArrays_arr spec0 launch0.win.arr_inj c (V0 m c) (fun w => (dats m 0 c).arrAt w cfg0.N) 3)

/-! ## The run, read -/

/-- Every weakly fair execution of the program ends with the result array at the layer of the argument arrays, and the
    argument arrays as they were. -/
theorem run : θ_run defs (onTc (τ := τ) (main (F := Ideal))) ⟨m, fun _ => 0, ρ⟩ fun r => ∀ c : Dev nD,
      r.2.mem ((c.tc : Thread nD τ).loc main_v3)
        = Snake.layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v3 (Pipeline.mem_restRefs_of main_v3 (by decide) (by decide))).trans
          ((tail_v3 m c).trans (by rw [final, V_v0, V_main_arg1, V_v1]; rfl)),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.ReferenceIdeal.RowsValue

end
-- ==== Proof.lean ====
/-
  The kernel's program and the reference's program compute one function on the extended reals.

  Both are the snake layer  out = y - cos (30 y) c + c,  y = x w + bias,  over x : [64, 512, 512] read as 32768 rows,
  each as ONE pallas_call tiled over the rows: the kernel in 32 blocks of 1024 rows with the row block and the weight
  cast to bf16 before the product, the reference in 8 blocks of 4096 rows in f32. On the extended reals a change of
  float format is the identity, the two literal words (30 and the single-precision number c nearest 1/30) are the same
  on both sides, and an entry of the output depends on its own row of x only, so the tiling is immaterial: each
  program's result array is Cert.Snake.layer of the three argument arrays (Proof/KernelValue.lean,
  Proof/ReferenceValue.lean, over Proof/SnakeRows.lean). No algebraic law joins the two sides — they are the same
  operations in the same order —, so the finiteness of the inputs is never used. The ideal pass rewrote nothing:
  the preservation claim is True.
-/
import proofs.«137465_g2000004240990481_pallasbulk_134_2_alg».proof.Defs
import proofs.«137465_g2000004240990481_pallasbulk_134_2_alg».proof.Proof.Gen.Kernel
import proofs.«137465_g2000004240990481_pallasbulk_134_2_alg».proof.Proof.Gen.Kernel.Frame
import proofs.«137465_g2000004240990481_pallasbulk_134_2_alg».proof.Proof.Gen.KernelIdeal
import proofs.«137465_g2000004240990481_pallasbulk_134_2_alg».proof.Proof.Gen.KernelIdeal.Frame
import proofs.«137465_g2000004240990481_pallasbulk_134_2_alg».proof.Proof.Gen.ReferenceIdeal
import proofs.«137465_g2000004240990481_pallasbulk_134_2_alg».proof.Proof.Gen.ReferenceIdeal.Frame
import proofs.«137465_g2000004240990481_pallasbulk_134_2_alg».proof.Proof.Gen.Pre_finite_inputs
import proofs.«137465_g2000004240990481_pallasbulk_134_2_alg».proof.Proof.KernelValue
import proofs.«137465_g2000004240990481_pallasbulk_134_2_alg».proof.Proof.ReferenceValue
import Idealize.ShloMosaic.Adequacy
import Idealize.ShloMosaic.Init

noncomputable section

namespace Cert.Proof

open Idealize.ShloMosaic Idealize.SL.Sem

/-- Each program runs to the end without a fault and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories agreeing on x, w and the bias both programs end with the layer of those three arrays in their
    result array. -/
theorem algebraic : Cert.algebraic_KernelIdeal_ReferenceIdeal := by
  intro m ρ m' ρ' _ hagree
  refine ⟨_, Cert.KernelIdeal.RowsValue.run m ρ, ?_⟩
  refine (θ_run Cert.ReferenceIdeal.defs _ _).mono (fun _ h c => ⟨(h c).1.trans ?_, (h c).2⟩)
    (Cert.ReferenceIdeal.RowsValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
